-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768 : Shape := ⟨1, ![32768]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S16x512 : Shape := ⟨2, ![16, 512]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S16x512 : S_.BroadcastsInDim S16x512 (![] : Fin 0 → Fin S16x512.rank)
  reducesTo_S16x512_S_d0_1 : S16x512.ReducesTo [0, 1] S_

variable [Facts]

def fn_part2 {F : FTy → Type} [FloatOps F] (main_arg8 : FVec F S1024x512 .f32) (main_arg9 : FVec F S512 .f32) (main_arg10 : FVec F S16x512 .f32) (main_v33 : IVec S_ 1) : IVec S_ 1 :=
  let main_v34 : FVec F S1024x512 .f32 := Host.absf main_arg8
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S16x512 .f32 := Host.absf main_arg10
  let main_cst_16 : FVec F S_ .f32 := constant S_ .f32 0x7F800000#32
  let main_v45 : FVec F S16x512 .f32 := broadcastInDim S16x512 ![] bcast_S_S16x512 main_cst_16
  let main_v46 : IVec S16x512 1 := cmpf .olt main_v44 main_v45
  let main_c_17 : IVec S_ 1 := constantI S_ 1 1#1
  let main_v47 : IVec S_ 1 := (fun x v => Host.reduce IntOp.andi x v reducesTo_S16x512_S_d0_1 h_S_) main_v46 main_c_17
  let main_v48 : IVec S_ 1 := andi main_v43 main_v47
  main_v48

def fn_part1 {F : FTy → Type} [FloatOps F] (main_arg5 : FVec F S1024 .f32) (main_arg6 : FVec F S1024x512 .f32) (main_arg7 : FVec F S512 .f32) (main_arg8 : FVec F S1024x512 .f32) (main_arg9 : FVec F S512 .f32) (main_arg10 : FVec F S16x512 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_v33

def fn {F : FTy → Type} [FloatOps F] (main_arg0 : FVec F S32768x1024 .f32) (main_arg1 : IVec S32768 32) (main_arg2 : FVec F S1024x2048 .f32) (main_arg3 : FVec F S2048 .f32) (main_arg4 : FVec F S2048x1024 .f32) (main_arg5 : FVec F S1024 .f32) (main_arg6 : FVec F S1024x512 .f32) (main_arg7 : FVec F S512 .f32) (main_arg8 : FVec F S1024x512 .f32) (main_arg9 : FVec F S512 .f32) (main_arg10 : FVec F S16x512 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg5 main_arg6 main_arg7 main_arg8 main_arg9 main_arg10 main_v13 main_v16
-- ==== Kernel.lean ====
abbrev S32768x1024 : Shape := ⟨2, ![32768, 1024]⟩
abbrev S32768 : Shape := ⟨1, ![32768]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S16x512 : Shape := ⟨2, ![16, 512]⟩
abbrev S128x1x256 : Shape := ⟨3, ![128, 1, 256]⟩
abbrev S1x2048 : Shape := ⟨2, ![1, 2048]⟩
abbrev S1x1024 : Shape := ⟨2, ![1, 1024]⟩
abbrev S1x512 : Shape := ⟨2, ![1, 512]⟩
abbrev S256x1024 : Shape := ⟨2, ![256, 1024]⟩
abbrev S1x1x256 : Shape := ⟨3, ![1, 1, 256]⟩
abbrev S16x1024 : Shape := ⟨2, ![16, 1024]⟩
abbrev S256x2048 : Shape := ⟨2, ![256, 2048]⟩
abbrev S1x256 : Shape := ⟨2, ![1, 256]⟩
abbrev S16x256 : Shape := ⟨2, ![16, 256]⟩

abbrev nBuf : Space → Nat
  | .hbm => 17
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1024x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S1024x512, .f32⟩
  | .hbm, ⟨9, _⟩ => ⟨S512, .f32⟩
  | .hbm, ⟨10, _⟩ => ⟨S16x512, .f32⟩
  | .hbm, ⟨11, _⟩ => ⟨S128x1x256, .i32⟩
  | .hbm, ⟨12, _⟩ => ⟨S1x2048, .f32⟩
  | .hbm, ⟨13, _⟩ => ⟨S1x1024, .f32⟩
  | .hbm, ⟨14, _⟩ => ⟨S1x512, .f32⟩
  | .hbm, ⟨15, _⟩ => ⟨S1x512, .f32⟩
  | .hbm, ⟨16, _⟩ => ⟨S16x512, .f32⟩
  | .local _ .vmem, ⟨0, _⟩ => ⟨S256x1024, .f32⟩
  | .local _ .vmem, ⟨1, _⟩ => ⟨S256x1024, .f32⟩
  | .local _ .vmem, ⟨2, _⟩ => ⟨S1x1x256, .i32⟩
  | .local _ .vmem, ⟨3, _⟩ => ⟨S1x1x256, .i32⟩
  | .local _ .vmem, ⟨4, _⟩ => ⟨S1024x2048, .f32⟩
  | .local _ .vmem, ⟨5, _⟩ => ⟨S1x2048, .f32⟩
  | .local _ .vmem, ⟨6, _⟩ => ⟨S2048x1024, .f32⟩
  | .local _ .vmem, ⟨7, _⟩ => ⟨S1x1024, .f32⟩
  | .local _ .vmem, ⟨8, _⟩ => ⟨S1024x512, .f32⟩
  | .local _ .vmem, ⟨9, _⟩ => ⟨S1x512, .f32⟩
  | .local _ .vmem, ⟨10, _⟩ => ⟨S1024x512, .f32⟩
  | .local _ .vmem, ⟨11, _⟩ => ⟨S1x512, .f32⟩
  | .local _ .vmem, ⟨12, _⟩ => ⟨S16x512, .f32⟩
  | .local _ .vmem, ⟨13, _⟩ => ⟨S16x512, .f32⟩
  | .local _ .vmem, ⟨14, _⟩ => ⟨S16x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v33 : BitVec 1 := Scalar.cmpi .eq arg0 c127_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  shapeCasts_S32768_S128x1x256 : S32768.ShapeCasts S128x1x256
  shapeCasts_S2048_S1x2048 : S2048.ShapeCasts S1x2048
  shapeCasts_S1024_S1x1024 : S1024.ShapeCasts S1x1024
  shapeCasts_S512_S1x512 : S512.ShapeCasts S1x512
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S256x1024_S256x1024_0_0 : ∀ a, (![0, 0] : Fin 2 → Nat) a + S256x1024.size a ≤ S256x1024.size a
  h_S256x1024 : 0 < S256x1024.numel
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  iota_S16x256_d0_w32 : S16x256.Iotas .tc 32 [0]
  broadcasts_S1x256_S16x256 : S1x256.Broadcasts S16x256
  natLt_1_32 : 1 < 32
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S16x512_S16x512_0_0 : ∀ a, (![0, 0] : Fin 2 → Nat) a + S16x512.size a ≤ S16x512.size a
  h_S16x512 : 0 < S16x512.numel
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  dot_S16x256_S256x1024_S16x1024_1_0_0_1_n_n_wf : DotDims.WF S16x256 S256x1024 S16x1024 [1] [0] [0] [1] [] []
  dot_S16x1024_S1024x512_S16x512_1_0_0_1_n_n_wf : DotDims.WF S16x1024 S1024x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S128x1x256.size a
  hwx0_1 : ∀ i : grid0.Coords, EltTy.bits .i32 = 32 ∨ (Rect.block (s := S128x1x256) S1x1x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .f32 = 32 ∨ (Rect.block (s := S1024x2048) S1024x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .f32 = 32 ∨ (Rect.block (s := S2048x1024) S2048x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .f32 = 32 ∨ (Rect.block (s := S1024x512) S1024x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .f32 = 32 ∨ (Rect.block (s := S1024x512) S1024x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x512.size a ≤ S16x512.size a
  hwx0_10 : ∀ i : grid0.Coords, EltTy.bits .f32 = 32 ∨ (Rect.block (s := S16x512) S16x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x512.size a ≤ S16x512.size a
  hwx0_11 : ∀ i : grid0.Coords, EltTy.bits .f32 = 32 ∨ (Rect.block (s := S16x512) S16x512.size (cc0_transform_11 i) (hinb0_11 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S16x512.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S32768x1024 : Shape := ⟨2, ![32768, 1024]⟩
abbrev S32768 : Shape := ⟨1, ![32768]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S16x512 : Shape := ⟨2, ![16, 512]⟩
abbrev S32768x2048 : Shape := ⟨2, ![32768, 2048]⟩
abbrev S1x2048 : Shape := ⟨2, ![1, 2048]⟩
abbrev S_ : Shape := ⟨0, ![]⟩
abbrev S1x1024 : Shape := ⟨2, ![1, 1024]⟩
abbrev S16x1024 : Shape := ⟨2, ![16, 1024]⟩
abbrev S32768x1 : Shape := ⟨2, ![32768, 1]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1024x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S1024x512, .f32⟩
  | .hbm, ⟨9, _⟩ => ⟨S512, .f32⟩
  | .hbm, ⟨10, _⟩ => ⟨S16x512, .f32⟩
  | .hbm, ⟨11, _⟩ => ⟨S32768x2048, .f32⟩
  | .hbm, ⟨12, _⟩ => ⟨S1x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S16x1024, .f32⟩
  | .hbm, ⟨27, _⟩ => ⟨S32768x1, .i32⟩
  | .hbm, ⟨28, _⟩ => ⟨S16x1024, .f32⟩
  | .hbm, ⟨29, _⟩ => ⟨S16x512, .f32⟩
  | .hbm, ⟨30, _⟩ => ⟨S1x512, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S1x512, .f32⟩
  | .hbm, ⟨35, _⟩ => ⟨S16x512, .f32⟩
  | .hbm, ⟨36, _⟩ => ⟨S16x512, .f32⟩
  | .hbm, ⟨37, _⟩ => ⟨S16x512, .f32⟩
  | .hbm, ⟨38, _⟩ => ⟨S16x512, .f32⟩
  | .hbm, ⟨39, _⟩ => ⟨S_, .f32⟩
  | .hbm, ⟨40, _⟩ => ⟨S16x512, .f32⟩
  | .hbm, ⟨41, _⟩ => ⟨S16x512, .f32⟩
  | .hbm, ⟨42, _⟩ => ⟨S16x512, .f32⟩
  | .hbm, ⟨43, _⟩ => ⟨S16x512, .f32⟩
  | .hbm, ⟨44, _⟩ => ⟨S16x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S_S16x1024 : S_.BroadcastsInDim S16x1024 (![] : Fin 0 → Fin S16x1024.rank)
  bcast_S32768_S32768x1_0 : S32768.BroadcastsInDim S32768x1 (![0] : Fin 1 → Fin S32768x1.rank)
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  dot_S32768x1024_S1024x2048_S32768x2048_1_0_0_1_n_n_wf : DotDims.WF S32768x1024 S1024x2048 S32768x2048 [1] [0] [0] [1] [] []
  dot_S32768x2048_S2048x1024_S32768x1024_1_0_0_1_n_n_wf : DotDims.WF S32768x2048 S2048x1024 S32768x1024 [1] [0] [0] [1] [] []
  scatter_S16x1024_S32768x1_S32768x1024_1_0_0_1_wf : ScatterDims.WF S16x1024 S32768x1 S32768x1024 [1] [0] [0] 1
  dot_S16x1024_S1024x512_S16x512_1_0_0_1_n_n_wf : DotDims.WF S16x1024 S1024x512 S16x512 [1] [0] [0] [1] [] []

variable [Facts₀]

def dot_S32768x1024_S1024x2048_S32768x2048_1_0_0_1_n_n : DotDims S32768x1024 S1024x2048 S32768x2048 where
  lhsContracting := [1]
  rhsContracting := [0]
  lhsNonContracting := [0]
  rhsNonContracting := [1]
  lhsBatch := []
  rhsBatch := []
  wf := dot_S32768x1024_S1024x2048_S32768x2048_1_0_0_1_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf
def scatter_S16x1024_S32768x1_S32768x1024_1_0_0_1 : ScatterDims S16x1024 S32768x1 S32768x1024 where
  updateWindowDims := [1]
  insertedWindowDims := [0]
  scatterDimsToOperandDims := [0]
  indexVectorDim := 1
  wf := scatter_S16x1024_S32768x1_S32768x1024_1_0_0_1_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf

class Facts : Prop extends Facts₀ where

variable [Facts]
-- ==== Proof.KernelPieces.lean ====
/-
  What each control case of the kernel body leaves behind, as the body's stored values.

  At the first grid point the accumulator is reset and then updated, so it ends at the step value over the reset value;
  at every later point it ends at the step value over what the point before left; at the last point the output block is
  the finishing value of the accumulator as just updated.
-/
import proofs.«131831_g44203803410838_cont_8to1_c_926_4_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point: the accumulator ends at the step value over the reset value. -/
theorem soutA_eq (c : Dev nD) (i : grid0.Coords) (arg1 : Memref sig .tc .vmem S256x1024 .f32) (harg1 : arg1.IsWhole) (arg2 : Memref sig .tc .vmem S1x1x256 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x1024 .f32) (harg13 : arg13.IsWhole) (hc0 : cond0_0 i) (hc1 : ¬cond0_1 i) (x0 : Vec F S256x1024 .f32) (x1 : Vec F S1x1x256 .i32) (x2 : Vec F S1024x2048 .f32) (x3 : Vec F S1x2048 .f32) (x4 : Vec F S2048x1024 .f32) (x5 : Vec F S1x1024 .f32) (x6 : Vec F S1024x512 .f32) (x7 : Vec F S1x512 .f32) (x8 : Vec F S1024x512 .f32) (x9 : Vec F S1x512 .f32) (x10 : Vec F S16x512 .f32) :
    sout0_A_0 (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 = k0_pay3 x0 x2 x3 x4 x5 x1 (k0_pay2 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10)]
  unfold kernelRun0_A
  dsimp only
  sl_unfold_words
  rw [View.canon_cons_unit_zero (S := S16x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread, View.ld_unit_zero (S := S256x1024) hz2, View.ld_unit_zero (S := S1024x2048) hz2, View.ld_unit_zero (S := S1x2048) hz2, View.ld_unit_zero (S := S2048x1024) hz2, View.ld_unit_zero (S := S1x1024) hz2, View.ld_unit_zero (S := S1x1x256) hz3, View.ld_unit_zero (S := S16x1024) hz2, View.ld_unit_zero (S := S1024x512) hz2, View.ld_unit_zero (S := S1x512) hz2, View.ld_unit_zero (S := S16x512) hz2, View.readCov_unit_zero (S := S16x1024) _ hz2]

/-- A middle point: the accumulator ends at the step value over what the point before left. -/
theorem soutB_eq (c : Dev nD) (i : grid0.Coords) (arg1 : Memref sig .tc .vmem S256x1024 .f32) (harg1 : arg1.IsWhole) (arg2 : Memref sig .tc .vmem S1x1x256 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x1024 .f32) (harg13 : arg13.IsWhole) (hc0 : ¬cond0_0 i) (hc1 : ¬cond0_1 i) (x0 : Vec F S256x1024 .f32) (x1 : Vec F S1x1x256 .i32) (x2 : Vec F S1024x2048 .f32) (x3 : Vec F S1x2048 .f32) (x4 : Vec F S2048x1024 .f32) (x5 : Vec F S1x1024 .f32) (x6 : Vec F S1024x512 .f32) (x7 : Vec F S1x512 .f32) (x8 : Vec F S1024x512 .f32) (x9 : Vec F S1x512 .f32) (x10 : Vec F S16x512 .f32) (xs0 : Vec F S16x1024 .f32) :
    sout0_B_0 (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0 = k0_pay3 x0 x2 x3 x4 x5 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_B
  dsimp only
  sl_unfold_words
  rw [View.canon_unit_zero (S := S16x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread, View.ld_unit_zero (S := S256x1024) hz2, View.ld_unit_zero (S := S1024x2048) hz2, View.ld_unit_zero (S := S1x2048) hz2, View.ld_unit_zero (S := S2048x1024) hz2, View.ld_unit_zero (S := S1x1024) hz2, View.ld_unit_zero (S := S1x1x256) hz3, View.ld_unit_zero (S := S16x1024) hz2, View.ld_unit_zero (S := S1024x512) hz2, View.ld_unit_zero (S := S1x512) hz2, View.ld_unit_zero (S := S16x512) hz2, View.readCov_unit_zero (S := S16x1024) _ hz2]

/-- The last point: the accumulator likewise, -/
theorem soutC_eq (c : Dev nD) (i : grid0.Coords) (arg1 : Memref sig .tc .vmem S256x1024 .f32) (harg1 : arg1.IsWhole) (arg2 : Memref sig .tc .vmem S1x1x256 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x1024 .f32) (harg13 : arg13.IsWhole) (hc0 : ¬cond0_0 i) (hc1 : cond0_1 i) (x0 : Vec F S256x1024 .f32) (x1 : Vec F S1x1x256 .i32) (x2 : Vec F S1024x2048 .f32) (x3 : Vec F S1x2048 .f32) (x4 : Vec F S2048x1024 .f32) (x5 : Vec F S1x1024 .f32) (x6 : Vec F S1024x512 .f32) (x7 : Vec F S1x512 .f32) (x8 : Vec F S1024x512 .f32) (x9 : Vec F S1x512 .f32) (x10 : Vec F S16x512 .f32) (xs0 : Vec F S16x1024 .f32) :
    sout0_C_0 (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0 = k0_pay3 x0 x2 x3 x4 x5 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_C
  dsimp only
  sl_unfold_words
  rw [View.canon_unit_zero (S := S16x1024) hz2]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread, View.ld_unit_zero (S := S256x1024) hz2, View.ld_unit_zero (S := S1024x2048) hz2, View.ld_unit_zero (S := S1x2048) hz2, View.ld_unit_zero (S := S2048x1024) hz2, View.ld_unit_zero (S := S1x1024) hz2, View.ld_unit_zero (S := S1x1x256) hz3, View.ld_unit_zero (S := S16x1024) hz2, View.ld_unit_zero (S := S1024x512) hz2, View.ld_unit_zero (S := S1x512) hz2, View.ld_unit_zero (S := S16x512) hz2, View.readCov_unit_zero (S := S16x1024) _ hz2]

/-- and the output block is the finishing value of the accumulator as just updated. -/
theorem outC_eq (c : Dev nD) (i : grid0.Coords) (arg1 : Memref sig .tc .vmem S256x1024 .f32) (harg1 : arg1.IsWhole) (arg2 : Memref sig .tc .vmem S1x1x256 .i32) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x1024 .f32) (harg5 : arg5.IsWhole) (arg6 : Memref sig .tc .vmem S1x1024 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x1024 .f32) (harg13 : arg13.IsWhole) (hc0 : ¬cond0_0 i) (hc1 : cond0_1 i) (x0 : Vec F S256x1024 .f32) (x1 : Vec F S1x1x256 .i32) (x2 : Vec F S1024x2048 .f32) (x3 : Vec F S1x2048 .f32) (x4 : Vec F S2048x1024 .f32) (x5 : Vec F S1x1024 .f32) (x6 : Vec F S1024x512 .f32) (x7 : Vec F S1x512 .f32) (x8 : Vec F S1024x512 .f32) (x9 : Vec F S1x512 .f32) (x10 : Vec F S16x512 .f32) (xs0 : Vec F S16x1024 .f32) :
    out0_C_11 (F := F) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0 = k0_pay1 (k0_pay3 x0 x2 x3 x4 x5 x1 xs0) x6 x7 x8 x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_C
  dsimp only
  sl_unfold_words
  rw [View.canon_unit_zero (S := S16x512) hz2]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread, View.ld_unit_zero (S := S256x1024) hz2, View.ld_unit_zero (S := S1024x2048) hz2, View.ld_unit_zero (S := S1x2048) hz2, View.ld_unit_zero (S := S2048x1024) hz2, View.ld_unit_zero (S := S1x1024) hz2, View.ld_unit_zero (S := S1x1x256) hz3, View.ld_unit_zero (S := S16x1024) hz2, View.ld_unit_zero (S := S1024x512) hz2, View.ld_unit_zero (S := S1x512) hz2, View.ld_unit_zero (S := S16x512) hz2, View.readCov_unit_zero (S := S16x1024) _ hz2]

end Cert.KernelIdeal.Pieces

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.Spec.lean ====
/-
  The function both programs compute, entry by entry, on the extended reals.

  Every node row goes through two dense layers, each followed by the rectifier `max · 0`; the rows are then summed
  per graph, row `n` counting for graph `s` exactly when its segment word, read as a signed integer, is `s` (a word
  outside `0 … 15` counts for no graph); the pooled row of a graph goes through two linear heads `zm` and `zv`, and
  the result is `zm + exp (-(1/2) · |zv|) · eps`.
-/
import Idealize.ShloMosaic.PureOps.Ideal
import Idealize.ShloMosaic.PureOps.Ideal.Laws
import Idealize.ShloMosaic.Lib.ValueIdx
import proofs.«131831_g44203803410838_cont_8to1_c_926_4_alg».proof.Proof.LibSumTiles

noncomputable section

namespace Cert.Spec

open Idealize.ShloMosaic Idealize.ShloMosaic.ValueIdx

/-- A rank-2 array of extended reals. -/
abbrev Arr2 (a b : Nat) := (⟨2, ![a, b]⟩ : Shape).Idx → EReal
/-- A rank-1 array of extended reals. -/
abbrev Arr1 (a : Nat) := (⟨1, ![a]⟩ : Shape).Idx → EReal

/-- One dense layer and the rectifier, for one row: `max (∑ k, row k · W (k, q) + b q) 0`. -/
def layer {K N : Nat} (row : Fin K → EReal) (W : Arr2 K N) (b : Fin N → EReal) (q : Fin N) : EReal :=
  max (∑ k : Fin K, row k * W (ix2 k q) + b q) 0

/-- The two layers of one node row. -/
def hiddenRow (row : Fin 1024 → EReal) (W1 : Arr2 1024 2048) (b1 : Fin 2048 → EReal) (W2 : Arr2 2048 1024)
    (b2 : Fin 1024 → EReal) (d : Fin 1024) : EReal :=
  layer (layer row W1 b1) W2 b2 d

/-- The per-graph sum of one column `H` of the hidden rows: row `n` counts for graph `s` when its segment word
    is `s` as a signed integer. -/
def pooled {N : Nat} (seg : Fin N → BitVec 32) (H : Fin N → EReal) (s : Fin 16) : EReal :=
  ∑ n : Fin N, if (seg n).toInt = (s.val : Int) then H n else 0

/-- The two heads and the reparameterization, for one graph's pooled row `g` at output column `l`. -/
def head (g : Fin 1024 → EReal) (Wm : Arr2 1024 512) (bm : EReal) (Wv : Arr2 1024 512) (bv : EReal) (e : EReal)
    (l : Fin 512) : EReal :=
  (∑ d : Fin 1024, g d * Wm (ix2 d l) + bm)
    + Ideal.exp (Ideal.ofBits .f32 0xBF000000#32
        * max (∑ d : Fin 1024, g d * Wv (ix2 d l) + bv) (-(∑ d : Fin 1024, g d * Wv (ix2 d l) + bv))) * e

/-- The pooled hidden rows of all graphs, from the arguments. -/
def pooledHidden (x : Arr2 32768 1024) (seg : (⟨1, ![32768]⟩ : Shape).Idx → BitVec 32) (W1 : Arr2 1024 2048)
    (b1 : Arr1 2048) (W2 : Arr2 2048 1024) (b2 : Arr1 1024) (s : Fin 16) (d : Fin 1024) : EReal :=
  pooled (fun n => seg (ix1 n))
    (fun n => hiddenRow (fun k => x (ix2 n k)) W1 (fun j => b1 (ix1 j)) W2 (fun d' => b2 (ix1 d')) d) s

/-- THE RESULT: entry `(s, l)` of the [16, 512] output as a function of the eleven arguments. -/
def result (x : Arr2 32768 1024) (seg : (⟨1, ![32768]⟩ : Shape).Idx → BitVec 32) (W1 : Arr2 1024 2048)
    (b1 : Arr1 2048) (W2 : Arr2 2048 1024) (b2 : Arr1 1024) (Wm : Arr2 1024 512) (bm : Arr1 512)
    (Wv : Arr2 1024 512) (bv : Arr1 512) (eps : Arr2 16 512) : Arr2 16 512 := fun i =>
  head (fun d => pooledHidden x seg W1 b1 W2 b2 (i 0) d) Wm (bm (ix1 (i 1))) Wv (bv (ix1 (i 1))) (eps (ix2 (i 0) (i 1))) (i 1)

/-! ## The float words the programs spell -/

/-- `+0.0` denotes `0`. -/
theorem zero_word : Ideal.ofBits .f32 0x00000000#32 = 0 := Ideal.ofBits_zero_f32

/-- `0.5` denotes the real `1/2`. -/
theorem half_word : Ideal.ofBits .f32 0x3F000000#32 = (((1 : ℝ) / 2 : ℝ) : EReal) := by
  simp [Ideal.ofBits, Ideal.ieee, -EReal.coe_mul]; norm_num

/-- `-0.5` denotes the real `-(1/2)`. -/
theorem neg_half_word : Ideal.ofBits .f32 0xBF000000#32 = ((-((1 : ℝ) / 2) : ℝ) : EReal) := by
  simp [Ideal.ofBits, Ideal.ieee, -EReal.coe_mul]; norm_num

/-- Scaling by `-0.5` is scaling the negation by `0.5`, on every extended real. -/
theorem neg_half_mul (a : EReal) :
    Ideal.ofBits .f32 0xBF000000#32 * a = Ideal.ofBits .f32 0x3F000000#32 * (-a) := by
  rw [neg_half_word, half_word, EReal.coe_neg, neg_mul, mul_neg]

/-! ## The one-hot weight -/

/-- The weight with which row word `w` enters graph `s`'s sum in the kernel: the comparison of the graph number
    with the word, widened to a 32-bit integer and converted to a float. -/
def hot (s : Fin 16) (w : BitVec 32) : EReal :=
  ((((IntOp.cmpi .eq (BitVec.ofNat 32 s.val) w).setWidth 32).toInt : ℝ) : EReal)

theorem ofNat_toInt : ∀ s : Fin 16, (BitVec.ofNat 32 s.val).toInt = (s.val : Int) := by decide

/-- The weight is `1` when the word is the graph's number and `0` otherwise, so the weighted row is the row or nothing. -/
theorem hot_mul (s : Fin 16) (w : BitVec 32) (h : EReal) :
    hot s w * h = if w.toInt = (s.val : Int) then h else 0 := by
  unfold hot
  by_cases e : BitVec.ofNat 32 s.val = w
  · have hc : IntOp.cmpi .eq (BitVec.ofNat 32 s.val) w = 1#1 := by
      simp only [IntOp.cmpi, e, beq_self_eq_true, BitVec.ofBool_true]; rfl
    rw [hc, if_pos (by rw [← e]; exact ofNat_toInt s)]
    have : ((1#1 : BitVec 1).setWidth 32).toInt = 1 := by decide
    rw [this]; simp
  · have hc : IntOp.cmpi .eq (BitVec.ofNat 32 s.val) w = 0#1 := by
      simp only [IntOp.cmpi, beq_eq_false_iff_ne.mpr e, BitVec.ofBool_false]; rfl
    rw [hc, if_neg (fun hw => e (BitVec.eq_of_toInt_eq ((ofNat_toInt s).trans hw.symm)))]
    have : ((0#1 : BitVec 1).setWidth 32).toInt = 0 := by decide
    rw [this]; simp

/-! ## The per-graph sum, tile by tile -/

/-- Row `r` of tile `t` of the 128 tiles of 256 node rows. -/
def rowOf (t : Fin 128) (r : Fin 256) : Fin 32768 := ⟨256 * t.val + r.val, by have := t.isLt; have := r.isLt; omega⟩

/-- The per-graph sum is the sum over the tiles of each tile's per-graph sum. -/
theorem pooled_tiles (seg : Fin 32768 → BitVec 32) (H : Fin 32768 → EReal) (s : Fin 16) :
    pooled seg H s
      = ∑ t : Fin 128, ∑ r : Fin 256, if (seg (rowOf t r)).toInt = (s.val : Int) then H (rowOf t r) else 0 := by
  unfold pooled
  exact Cert.SumTiles.sum_tiles 128 256 (fun n : Fin (128 * 256) => if (seg n).toInt = (s.val : Int) then H n else 0)

end Cert.Spec

end
-- ==== Proof.KernelBlocks.lean ====
/-
  What the kernel body reads at a grid point, in terms of the argument arrays.

  Point `t` of the 128 reads rows `256 t … 256 t + 255` of the node features and the segment words of the same rows
  (the words were laid out [128, 1, 256] before the call: row `t`, entry `r` is word `256 t + r`); the weights and the
  noise array are read whole at every point, and the four bias vectors, laid out [1, n] before the call, are read whole too.
-/
import proofs.«131831_g44203803410838_cont_8to1_c_926_4_alg».proof.Proof.Gen.KernelIdeal.Value
import proofs.«131831_g44203803410838_cont_8to1_c_926_4_alg».proof.Proof.Spec
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Spec Idealize.ShloMosaic.StableHlo

variable (m : (ℓ : Loc nD τ sig) → Buf (Elt Ideal) ℓ)

/-- A grid point as a tile number. -/
def tile (t : Fin cfg0.N) : Fin 128 := ⟨t.val, lt_of_lt_of_eq t.isLt (show cfg0.N = 128 from N_0)⟩

/-! ## The blocks, named at their literal types -/

abbrev xblk (c : Dev nD) (t : Fin cfg0.N) : FVec Ideal S256x1024 .f32 := iblk m c 0 t
abbrev sblk (c : Dev nD) (t : Fin cfg0.N) : IVec S1x1x256 32 := iblk m c 1 t
abbrev w1blk (c : Dev nD) (t : Fin cfg0.N) : FVec Ideal S1024x2048 .f32 := iblk m c 2 t
abbrev b1blk (c : Dev nD) (t : Fin cfg0.N) : FVec Ideal S1x2048 .f32 := iblk m c 3 t
abbrev w2blk (c : Dev nD) (t : Fin cfg0.N) : FVec Ideal S2048x1024 .f32 := iblk m c 4 t
abbrev b2blk (c : Dev nD) (t : Fin cfg0.N) : FVec Ideal S1x1024 .f32 := iblk m c 5 t
abbrev wmblk (c : Dev nD) (t : Fin cfg0.N) : FVec Ideal S1024x512 .f32 := iblk m c 6 t
abbrev bmblk (c : Dev nD) (t : Fin cfg0.N) : FVec Ideal S1x512 .f32 := iblk m c 7 t
abbrev wvblk (c : Dev nD) (t : Fin cfg0.N) : FVec Ideal S1024x512 .f32 := iblk m c 8 t
abbrev bvblk (c : Dev nD) (t : Fin cfg0.N) : FVec Ideal S1x512 .f32 := iblk m c 9 t
abbrev eblk (c : Dev nD) (t : Fin cfg0.N) : FVec Ideal S16x512 .f32 := iblk m c 10 t

/-- The arguments, named at their literal types. -/
abbrev xarr (c : Dev nD) : FVec Ideal S32768x1024 .f32 := m ((c : Thread nD τ).loc main_arg0)
abbrev sarr (c : Dev nD) : IVec S32768 32 := m ((c : Thread nD τ).loc main_arg1)
abbrev w1arr (c : Dev nD) : FVec Ideal S1024x2048 .f32 := m ((c : Thread nD τ).loc main_arg2)
abbrev b1arr (c : Dev nD) : FVec Ideal S2048 .f32 := m ((c : Thread nD τ).loc main_arg3)
abbrev w2arr (c : Dev nD) : FVec Ideal S2048x1024 .f32 := m ((c : Thread nD τ).loc main_arg4)
abbrev b2arr (c : Dev nD) : FVec Ideal S1024 .f32 := m ((c : Thread nD τ).loc main_arg5)
abbrev wmarr (c : Dev nD) : FVec Ideal S1024x512 .f32 := m ((c : Thread nD τ).loc main_arg6)
abbrev bmarr (c : Dev nD) : FVec Ideal S512 .f32 := m ((c : Thread nD τ).loc main_arg7)
abbrev wvarr (c : Dev nD) : FVec Ideal S1024x512 .f32 := m ((c : Thread nD τ).loc main_arg8)
abbrev bvarr (c : Dev nD) : FVec Ideal S512 .f32 := m ((c : Thread nD τ).loc main_arg9)
abbrev earr (c : Dev nD) : FVec Ideal S16x512 .f32 := m ((c : Thread nD τ).loc main_arg10)

/-! ## The index maps, decided over the grid -/

theorem idx_rows : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

theorem idx_whole : ∀ t : Fin cfg0.N, (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0)
    ∧ (∀ a : Fin 2, win0_10.index t a = 0) ∧ (∀ a : Fin 2, win0_11.index t a = 0) :=
  (by decide +kernel : ∀ t : Fin grid0.N, _)

/-! ## The arrays the host laid out before the call -/

theorem V_seg (c : Dev nD) : (V m c main_call0_v0 : IVec S128x1x256 32)
    = shapeCast S128x1x256 (sarr m c) Facts₀.shapeCasts_S32768_S128x1x256 := by
  dsimp only [Gen.V, Gen.hostOps0]; after_results; rfl

theorem V_b1 (c : Dev nD) : (V m c main_call0_v1 : FVec Ideal S1x2048 .f32)
    = shapeCast S1x2048 (b1arr m c) Facts₀.shapeCasts_S2048_S1x2048 := by
  dsimp only [Gen.V, Gen.hostOps0]; after_results; rfl

theorem V_b2 (c : Dev nD) : (V m c main_call0_v2 : FVec Ideal S1x1024 .f32)
    = shapeCast S1x1024 (b2arr m c) Facts₀.shapeCasts_S1024_S1x1024 := by
  dsimp only [Gen.V, Gen.hostOps0]; after_results; rfl

theorem V_bm (c : Dev nD) : (V m c main_call0_v3 : FVec Ideal S1x512 .f32)
    = shapeCast S1x512 (bmarr m c) Facts₀.shapeCasts_S512_S1x512 := by
  dsimp only [Gen.V, Gen.hostOps0]; after_results; rfl

theorem V_bv (c : Dev nD) : (V m c main_call0_v4 : FVec Ideal S1x512 .f32)
    = shapeCast S1x512 (bvarr m c) Facts₀.shapeCasts_S512_S1x512 := by
  dsimp only [Gen.V, Gen.hostOps0]; after_results; rfl

/-! ## The blocks read at an index -/

/-- Row `r` of the node block at point `t` is node row `256 t + r`. -/
theorem xblk_apply (c : Dev nD) (t : Fin cfg0.N) (r : Fin 256) (k : Fin 1024) :
    xblk m c t (ix2 r k) = xarr m c (ix2 (rowOf (tile t) r) k) := by
  show ((cfg0.win 0).blk t).view.read (Elt Ideal) (V m c main_arg0) (ix2 r k) = _
  rw [View.read_apply, V_main_arg0]
  show xarr m c _ = xarr m c _
  congr 1
  funext a; apply Fin.ext
  obtain ⟨e0, e1, -⟩ := idx_rows t
  match a with
  | ⟨0, _⟩ => show win0_0.index t (0 : Fin 2) * 256 + 1 * r.val = 256 * t.val + r.val; omega
  | ⟨1, _⟩ => show win0_0.index t (1 : Fin 2) * 1024 + 1 * k.val = k.val; omega

/-- Entry `r` of the segment block at point `t` is the segment word of node row `256 t + r`. -/
theorem sblk_apply (c : Dev nD) (t : Fin cfg0.N) (r : Fin 256) :
    sblk m c t (ix3 (0 : Fin 1) (0 : Fin 1) r) = sarr m c (ix1 (rowOf (tile t) r)) := by
  show ((cfg0.win 1).blk t).view.read (Elt Ideal) (V m c main_call0_v0) (ix3 (0 : Fin 1) (0 : Fin 1) r) = _
  rw [View.read_apply, V_seg]
  obtain ⟨-, -, e0, e1, e2⟩ := idx_rows t
  refine shapeCast_apply _ _ _ _ ?_
  rw [Shape.rowMajor_val_one, Shape.rowMajor_val_three]
  show 256 * t.val + r.val = ((win0_1.index t (0 : Fin 3) * 1 + 1 * 0) * 1 + (win0_1.index t (1 : Fin 3) * 1 + 1 * 0)) * 256 + (win0_1.index t (2 : Fin 3) * 256 + 1 * r.val)
  omega

/-! ## The operands read whole -/

theorem w1blk_eq (c : Dev nD) (t : Fin cfg0.N) : w1blk m c t = w1arr m c := by
  funext j
  show ((cfg0.win 2).blk t).view.read (Elt Ideal) (V m c main_arg2) j = _
  rw [View.read_apply, V_main_arg2]
  show w1arr m c _ = w1arr m c _
  congr 1
  funext a; apply Fin.ext
  have e := (idx_whole t).1
  match a with
  | ⟨0, _⟩ => show win0_2.index t (0 : Fin 2) * 1024 + 1 * (j 0).val = (j 0).val; rw [e 0]; omega
  | ⟨1, _⟩ => show win0_2.index t (1 : Fin 2) * 2048 + 1 * (j 1).val = (j 1).val; rw [e 1]; omega

theorem w2blk_eq (c : Dev nD) (t : Fin cfg0.N) : w2blk m c t = w2arr m c := by
  funext j
  show ((cfg0.win 4).blk t).view.read (Elt Ideal) (V m c main_arg4) j = _
  rw [View.read_apply, V_main_arg4]
  show w2arr m c _ = w2arr m c _
  congr 1
  funext a; apply Fin.ext
  have e := (idx_whole t).2.2.1
  match a with
  | ⟨0, _⟩ => show win0_4.index t (0 : Fin 2) * 2048 + 1 * (j 0).val = (j 0).val; rw [e 0]; omega
  | ⟨1, _⟩ => show win0_4.index t (1 : Fin 2) * 1024 + 1 * (j 1).val = (j 1).val; rw [e 1]; omega

theorem wmblk_eq (c : Dev nD) (t : Fin cfg0.N) : wmblk m c t = wmarr m c := by
  funext j
  show ((cfg0.win 6).blk t).view.read (Elt Ideal) (V m c main_arg6) j = _
  rw [View.read_apply, V_main_arg6]
  show wmarr m c _ = wmarr m c _
  congr 1
  funext a; apply Fin.ext
  have e := (idx_whole t).2.2.2.2.1
  match a with
  | ⟨0, _⟩ => show win0_6.index t (0 : Fin 2) * 1024 + 1 * (j 0).val = (j 0).val; rw [e 0]; omega
  | ⟨1, _⟩ => show win0_6.index t (1 : Fin 2) * 512 + 1 * (j 1).val = (j 1).val; rw [e 1]; omega

theorem wvblk_eq (c : Dev nD) (t : Fin cfg0.N) : wvblk m c t = wvarr m c := by
  funext j
  show ((cfg0.win 8).blk t).view.read (Elt Ideal) (V m c main_arg8) j = _
  rw [View.read_apply, V_main_arg8]
  show wvarr m c _ = wvarr m c _
  congr 1
  funext a; apply Fin.ext
  have e := (idx_whole t).2.2.2.2.2.2.1
  match a with
  | ⟨0, _⟩ => show win0_8.index t (0 : Fin 2) * 1024 + 1 * (j 0).val = (j 0).val; rw [e 0]; omega
  | ⟨1, _⟩ => show win0_8.index t (1 : Fin 2) * 512 + 1 * (j 1).val = (j 1).val; rw [e 1]; omega

theorem eblk_eq (c : Dev nD) (t : Fin cfg0.N) : eblk m c t = earr m c := by
  funext j
  show ((cfg0.win 10).blk t).view.read (Elt Ideal) (V m c main_arg10) j = _
  rw [View.read_apply, V_main_arg10]
  show earr m c _ = earr m c _
  congr 1
  funext a; apply Fin.ext
  have e := (idx_whole t).2.2.2.2.2.2.2.2.1
  match a with
  | ⟨0, _⟩ => show win0_10.index t (0 : Fin 2) * 16 + 1 * (j 0).val = (j 0).val; rw [e 0]; omega
  | ⟨1, _⟩ => show win0_10.index t (1 : Fin 2) * 512 + 1 * (j 1).val = (j 1).val; rw [e 1]; omega

/-! ## The bias rows -/

theorem b1blk_apply (c : Dev nD) (t : Fin cfg0.N) (j : Fin 2048) : b1blk m c t (ix2 (0 : Fin 1) j) = b1arr m c (ix1 j) := by
  show ((cfg0.win 3).blk t).view.read (Elt Ideal) (V m c main_call0_v1) (ix2 (0 : Fin 1) j) = _
  rw [View.read_apply, V_b1]
  have e := (idx_whole t).2.1
  refine shapeCast_apply _ _ _ _ ?_
  rw [Shape.rowMajor_val_one, Shape.rowMajor_val_two]
  show j.val = (win0_3.index t (0 : Fin 2) * 1 + 1 * 0) * 2048 + (win0_3.index t (1 : Fin 2) * 2048 + 1 * j.val)
  rw [e 0, e 1]; omega

theorem b2blk_apply (c : Dev nD) (t : Fin cfg0.N) (j : Fin 1024) : b2blk m c t (ix2 (0 : Fin 1) j) = b2arr m c (ix1 j) := by
  show ((cfg0.win 5).blk t).view.read (Elt Ideal) (V m c main_call0_v2) (ix2 (0 : Fin 1) j) = _
  rw [View.read_apply, V_b2]
  have e := (idx_whole t).2.2.2.1
  refine shapeCast_apply _ _ _ _ ?_
  rw [Shape.rowMajor_val_one, Shape.rowMajor_val_two]
  show j.val = (win0_5.index t (0 : Fin 2) * 1 + 1 * 0) * 1024 + (win0_5.index t (1 : Fin 2) * 1024 + 1 * j.val)
  rw [e 0, e 1]; omega

theorem bmblk_apply (c : Dev nD) (t : Fin cfg0.N) (j : Fin 512) : bmblk m c t (ix2 (0 : Fin 1) j) = bmarr m c (ix1 j) := by
  show ((cfg0.win 7).blk t).view.read (Elt Ideal) (V m c main_call0_v3) (ix2 (0 : Fin 1) j) = _
  rw [View.read_apply, V_bm]
  have e := (idx_whole t).2.2.2.2.2.1
  refine shapeCast_apply _ _ _ _ ?_
  rw [Shape.rowMajor_val_one, Shape.rowMajor_val_two]
  show j.val = (win0_7.index t (0 : Fin 2) * 1 + 1 * 0) * 512 + (win0_7.index t (1 : Fin 2) * 512 + 1 * j.val)
  rw [e 0, e 1]; omega

theorem bvblk_apply (c : Dev nD) (t : Fin cfg0.N) (j : Fin 512) : bvblk m c t (ix2 (0 : Fin 1) j) = bvarr m c (ix1 j) := by
  show ((cfg0.win 9).blk t).view.read (Elt Ideal) (V m c main_call0_v4) (ix2 (0 : Fin 1) j) = _
  rw [View.read_apply, V_bv]
  have e := (idx_whole t).2.2.2.2.2.2.2.1
  refine shapeCast_apply _ _ _ _ ?_
  rw [Shape.rowMajor_val_one, Shape.rowMajor_val_two]
  show j.val = (win0_9.index t (0 : Fin 2) * 1 + 1 * 0) * 512 + (win0_9.index t (1 : Fin 2) * 512 + 1 * j.val)
  rw [e 0, e 1]; omega

end Cert.KernelIdeal.Blocks

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.KernelPay.lean ====
/-
  What the kernel body's three stored values are, entry by entry, on the extended reals.

  The reset value is the zero array. The step value at `(s, d)` is what the accumulator held there plus the sum over
  the tile's 256 rows of the one-hot weight of the row for graph `s` times the row's hidden value at column `d`: a
  product of a 0/1 matrix with the tile's hidden block. The finishing value at `(s, l)` is the two heads of the pooled
  row of graph `s` and the reparameterization.
-/
import proofs.«131831_g44203803410838_cont_8to1_c_926_4_alg».proof.Proof.Gen.KernelIdeal.Skeleton
import proofs.«131831_g44203803410838_cont_8to1_c_926_4_alg».proof.Proof.Spec
import proofs.«131831_g44203803410838_cont_8to1_c_926_4_alg».proof.Proof.LibMatmulPlain
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx
open Idealize.ShloMosaic.MatmulPlain Cert.Spec

/-- The four matrix products of the body are plain row-by-column products. -/
theorem dot1_eq : dot_S256x1024_S1024x2048_S256x2048_1_0_0_1_n_n = DotDims.plain 256 1024 2048 := rfl
theorem dot2_eq : dot_S256x2048_S2048x1024_S256x1024_1_0_0_1_n_n = DotDims.plain 256 2048 1024 := rfl
theorem dot3_eq : dot_S16x256_S256x1024_S16x1024_1_0_0_1_n_n = DotDims.plain 16 256 1024 := rfl
theorem dot4_eq : dot_S16x1024_S1024x512_S16x512_1_0_0_1_n_n = DotDims.plain 16 1024 512 := rfl

/-- A product into a zero accumulator, plus a bias row broadcast over the rows, rectified, at `(p, q)`: one
    dense layer of row `p`. -/
theorem layer_apply {M K N : Nat} (x : FVec Ideal ⟨2, ![M, K]⟩ .f32) (W : FVec Ideal ⟨2, ![K, N]⟩ .f32)
    (b : FVec Ideal ⟨2, ![1, N]⟩ .f32) (hb : (⟨2, ![1, N]⟩ : Shape).Broadcasts ⟨2, ![M, N]⟩) (p : Fin M) (q : Fin N) :
    maximumf (addf (matmul (DotDims.plain M K N) none x W (constant ⟨2, ![M, N]⟩ .f32 0x00000000#32))
        (broadcastTo ⟨2, ![M, N]⟩ b hb)) (broadcast ⟨2, ![M, N]⟩ (Scalar.ofBits .f32 0x00000000#32)) (ix2 p q)
      = layer (fun k => x (ix2 p k)) W (fun j => b (ix2 (0 : Fin 1) j)) q := by
  rw [maximumf_apply, addf_apply, matmul_zero_apply, broadcastTo_1b_ab_apply, broadcast_apply]
  show max (_ + _) (Ideal.ofBits .f32 0x00000000#32) = _
  rw [zero_word]
  rfl

/-- The one-hot factor at `(s, r)`: the weight of the tile's row `r` for graph `s`. -/
theorem onehot_apply (sg : IVec S1x1x256 32) (h1 : S1x1x256.ShapeCasts S1x256) (h2 : S1x256.Broadcasts S16x256)
    (h3 : S16x256.Iotas .tc 32 [0]) (h4 : 1 < 32) (s : Fin 16) (r : Fin 256) :
    (sitofp (F := Ideal) .f32 (extui 32 (cmpi .eq (iota .tc S16x256 32 [0] h3) (broadcastTo S16x256 (shapeCast S1x256 sg h1) h2)) h4)
        : FVec Ideal S16x256 .f32) (ix2 s r)
      = hot s (sg (ix3 (0 : Fin 1) (0 : Fin 1) r)) := by
  show ((((IntOp.cmpi .eq (iota .tc S16x256 32 [0] h3 (ix2 s r))
      (broadcastTo S16x256 (shapeCast S1x256 sg h1) h2 (ix2 s r))).setWidth 32).toInt : ℝ) : EReal) = _
  rw [iota_single_apply, broadcastTo_1b_ab_apply, shapeCast_1ab_ab_apply]
  rfl

/-- The reset value is zero everywhere. -/
theorem pay2_apply (i : S16x1024.Idx) : k0_pay2 (F := Ideal) i = 0 := by
  unfold k0_pay2
  simp only [shapeCast_self]
  exact zero_word

/-- The step value at `(s, d)`. -/
theorem pay3_apply (xb : FVec Ideal S256x1024 .f32) (W1 : FVec Ideal S1024x2048 .f32) (b1 : FVec Ideal S1x2048 .f32)
    (W2 : FVec Ideal S2048x1024 .f32) (b2 : FVec Ideal S1x1024 .f32) (sg : IVec S1x1x256 32)
    (acc : FVec Ideal S16x1024 .f32) (s : Fin 16) (d : Fin 1024) :
    k0_pay3 (F := Ideal) xb W1 b1 W2 b2 sg acc (ix2 s d)
      = acc (ix2 s d) + ∑ r : Fin 256, if (sg (ix3 (0 : Fin 1) (0 : Fin 1) r)).toInt = (s.val : Int)
          then hiddenRow (fun k => xb (ix2 r k)) W1 (fun j => b1 (ix2 (0 : Fin 1) j)) W2 (fun d' => b2 (ix2 (0 : Fin 1) d')) d
          else 0 := by
  unfold k0_pay3
  simp only [shapeCast_self]
  rw [addf_apply, dot3_eq, matmul_zero_apply]
  congr 1
  refine Finset.sum_congr rfl fun r _ => ?_
  rw [onehot_apply, dot2_eq, layer_apply, ← hot_mul]
  congr 1
  unfold hiddenRow
  congr 1
  funext j
  rw [dot1_eq, layer_apply]

/-- The finishing value at `(s, l)`. -/
theorem pay1_apply (g : FVec Ideal S16x1024 .f32) (Wm : FVec Ideal S1024x512 .f32) (bm : FVec Ideal S1x512 .f32)
    (Wv : FVec Ideal S1024x512 .f32) (bv : FVec Ideal S1x512 .f32) (e : FVec Ideal S16x512 .f32) (s : Fin 16) (l : Fin 512) :
    k0_pay1 (F := Ideal) g Wm bm Wv bv e (ix2 s l)
      = head (fun d => g (ix2 s d)) Wm (bm (ix2 (0 : Fin 1) l)) Wv (bv (ix2 (0 : Fin 1) l)) (e (ix2 s l)) l := by
  unfold k0_pay1
  simp only [shapeCast_self]
  rw [addf_apply, addf_apply, mulf_apply, dot4_eq, matmul_zero_apply, broadcastTo_1b_ab_apply]
  show _ + Ideal.exp (Ideal.ofBits .f32 0xBF000000#32 * max _ (-_)) * _ = _
  rw [addf_apply, matmul_zero_apply, broadcastTo_1b_ab_apply]
  rfl

/-- The step value at `(s, d)` when the loaded blocks are tile `tl`'s rows of the node array `X` and of the segment
    words `SG`, the whole weight matrices, and the bias vectors `B1`, `B2` laid out as one row. -/
theorem step_of_blocks (xb : FVec Ideal S256x1024 .f32) (W1b W1 : FVec Ideal S1024x2048 .f32) (b1 : FVec Ideal S1x2048 .f32)
    (W2b W2 : FVec Ideal S2048x1024 .f32) (b2 : FVec Ideal S1x1024 .f32) (sg : IVec S1x1x256 32)
    (acc : FVec Ideal S16x1024 .f32) (X : FVec Ideal S32768x1024 .f32) (SG : IVec S32768 32) (B1 : FVec Ideal S2048 .f32)
    (B2 : FVec Ideal S1024 .f32) (tl : Fin 128) (hw1 : W1b = W1) (hw2 : W2b = W2)
    (hx : ∀ (r : Fin 256) (k : Fin 1024), xb (ix2 r k) = X (ix2 (rowOf tl r) k))
    (hs : ∀ r : Fin 256, sg (ix3 (0 : Fin 1) (0 : Fin 1) r) = SG (ix1 (rowOf tl r)))
    (hb1 : ∀ j : Fin 2048, b1 (ix2 (0 : Fin 1) j) = B1 (ix1 j)) (hb2 : ∀ j : Fin 1024, b2 (ix2 (0 : Fin 1) j) = B2 (ix1 j))
    (s : Fin 16) (d : Fin 1024) :
    k0_pay3 (F := Ideal) xb W1b b1 W2b b2 sg acc (ix2 s d)
      = acc (ix2 s d) + ∑ r : Fin 256, if (SG (ix1 (rowOf tl r))).toInt = (s.val : Int)
          then hiddenRow (fun k => X (ix2 (rowOf tl r) k)) W1 (fun j => B1 (ix1 j)) W2 (fun d' => B2 (ix1 d')) d
          else 0 := by
  subst hw1 hw2
  rw [pay3_apply]
  congr 1
  refine Finset.sum_congr rfl fun r _ => ?_
  rw [hs]
  simp only [hx, hb1, hb2]

/-- The finishing value at `(s, l)` when the loaded blocks are the whole head matrices, the bias vectors `Bm`, `Bv`
    laid out as one row, and the whole noise array. -/
theorem finish_of_blocks (g : FVec Ideal S16x1024 .f32) (Wmb Wm : FVec Ideal S1024x512 .f32) (bm : FVec Ideal S1x512 .f32)
    (Wvb Wv : FVec Ideal S1024x512 .f32) (bv : FVec Ideal S1x512 .f32) (eb e : FVec Ideal S16x512 .f32)
    (Bm Bv : FVec Ideal S512 .f32) (hwm : Wmb = Wm) (hwv : Wvb = Wv) (he : eb = e)
    (hbm : ∀ l : Fin 512, bm (ix2 (0 : Fin 1) l) = Bm (ix1 l)) (hbv : ∀ l : Fin 512, bv (ix2 (0 : Fin 1) l) = Bv (ix1 l))
    (s : Fin 16) (l : Fin 512) :
    k0_pay1 (F := Ideal) g Wmb bm Wvb bv eb (ix2 s l)
      = head (fun d => g (ix2 s d)) Wm (Bm (ix1 l)) Wv (Bv (ix1 l)) (e (ix2 s l)) l := by
  subst hwm hwv he
  rw [pay1_apply, hbm, hbv]

end Cert.KernelIdeal.Pay

end
-- ==== Proof.KernelFold.lean ====
/-
  The kernel's result array is the specified function of its arguments.

  The accumulator after grid point `n` holds, at `(s, d)`, the sum over the tiles `0 … n` of each tile's rows of
  graph `s` at hidden column `d`: it starts from the zero array at the first point and every point adds its own
  tile's sum. After the last point that is the per-graph sum over all node rows, the sum over a tiled axis being the sum
  of the tiles' sums. The last point writes the heads of that array into the output block, which is the whole output
  array and is written back once.
-/
import proofs.«131831_g44203803410838_cont_8to1_c_926_4_alg».proof.Proof.Gen.KernelIdeal.Value
import proofs.«131831_g44203803410838_cont_8to1_c_926_4_alg».proof.Proof.KernelPieces
import proofs.«131831_g44203803410838_cont_8to1_c_926_4_alg».proof.Proof.KernelBlocks
import proofs.«131831_g44203803410838_cont_8to1_c_926_4_alg».proof.Proof.KernelPay
import proofs.«131831_g44203803410838_cont_8to1_c_926_4_alg».proof.Proof.Spec

noncomputable section

namespace Cert.KernelIdeal.Fold

open Cert.KernelIdeal Cert.KernelIdeal.Gen Idealize.ShloMosaic Idealize.ShloMosaic.TcCoe Idealize.SL.Sem
open Idealize.ShloMosaic.ValueIdx Cert.Spec Cert.KernelIdeal.Blocks
open Idealize.ShloMosaic.Pipeline (Dat)

variable (m : (ℓ : Loc nD τ sig) → Buf (Elt Ideal) ℓ) (ρ : Dev nD → PrngReg)

/-- What the output array ends holding: the specified function of the arguments. -/
abbrev G (c : Dev nD) : S16x512.Idx → EReal :=
  result (xarr m c) (sarr m c) (w1arr m c) (b1arr m c) (w2arr m c) (b2arr m c) (wmarr m c) (bmarr m c) (wvarr m c)
    (bvarr m c) (earr m c)

/-- Tile `n`'s share of the per-graph sums at `(s, d) = i`: its rows of graph `s`, at hidden column `d`. -/
def tileSum (c : Dev nD) (n : Nat) (i : S16x1024.Idx) : EReal :=
  if h : n < cfg0.N then
    ∑ r : Fin 256, if (sarr m c (ix1 (rowOf (tile ⟨n, h⟩) r))).toInt = ((i 0).val : Int)
      then hiddenRow (fun k => xarr m c (ix2 (rowOf (tile ⟨n, h⟩) r) k)) (w1arr m c) (fun j => b1arr m c (ix1 j))
        (w2arr m c) (fun d' => b2arr m c (ix1 d')) (i 1)
      else 0
  else 0

/-- The step value at point `t`: what the accumulator held plus the tile's share. -/
theorem step_apply (c : Dev nD) (t : Fin cfg0.N) (acc : FVec Ideal S16x1024 .f32) (i : S16x1024.Idx) :
    k0_pay3 (F := Ideal) (xblk m c t) (w1blk m c t) (b1blk m c t) (w2blk m c t) (b2blk m c t) (sblk m c t) acc i
      = acc i + tileSum m c t.val i := by
  obtain ⟨s, d, rfl⟩ : ∃ (s : Fin 16) (d : Fin 1024), i = ix2 s d := ⟨i 0, i 1, eq_ix2 i⟩
  unfold tileSum
  rw [dif_pos t.isLt]
  exact Pay.step_of_blocks (xblk m c t) (w1blk m c t) (w1arr m c) (b1blk m c t) (w2blk m c t) (w2arr m c) (b2blk m c t)
    (sblk m c t) acc (xarr m c) (sarr m c) (b1arr m c) (b2arr m c) (tile t) (w1blk_eq m c t) (w2blk_eq m c t)
    (xblk_apply m c t) (sblk_apply m c t) (b1blk_apply m c t) (b2blk_apply m c t) s d

/-- The accumulator after point `n`, at an entry: the shares of the tiles `0 … n`, summed. -/
theorem scratch_apply (c : Dev nD) (n : Nat) (hn : n < cfg0.N) (i : S16x1024.Idx) :
    (outsAt0 m c n hn).2 i = 0 + ∑ s ∈ Finset.range (n + 1), tileSum m c (0 + s) i := by
  have hN : cfg0.N = 128 := N_0
  rw [Value.soutsAt0_0_sweep m c n hn]
  refine Pipeline.accAt_add_apply (ι := S16x1024.Idx) (β := EReal)
    (fun n h => Value.scAt0_0 m c n h (VS0_0.read (Elt Ideal) VS0_0.junk)) (Value.scAt0_0 m c) (fun _ => 0)
    (tileSum m c) 0 127 ?_ ?_ n (by omega) (by omega) i
  · intro h j
    show Value.scAt0_0 m c 0 h (VS0_0.read (Elt Ideal) VS0_0.junk) j = 0 + tileSum m c 0 j
    unfold Value.scAt0_0
    rw [dif_pos (by decide), dif_neg (by decide), Pieces.soutA_eq]
    rw [step_apply m c ⟨0, h⟩ _ j, Pay.pay2_apply]
  · intro k h acc j hk hk'
    have h0 : ¬k % 128 = 0 := by omega
    unfold Value.scAt0_0
    rw [dif_neg h0]
    by_cases h1 : k % 128 = 127
    · rw [dif_pos h1, Pieces.soutC_eq]
      exact step_apply m c ⟨k, h⟩ acc j
    · rw [dif_neg h1, Pieces.soutB_eq]
      exact step_apply m c ⟨k, h⟩ acc j

/-- The shares of all 128 tiles are the per-graph sums over all node rows. -/
theorem tiles_eq_pooled (c : Dev nD) (s : Fin 16) (d : Fin 1024) :
    (0 : EReal) + ∑ n ∈ Finset.range (127 + 1), tileSum m c (0 + n) (ix2 s d)
      = pooledHidden (xarr m c) (sarr m c) (w1arr m c) (b1arr m c) (w2arr m c) (b2arr m c) s d := by
  have hN : cfg0.N = 128 := N_0
  rw [zero_add]
  unfold pooledHidden
  rw [pooled_tiles]
  show ∑ n ∈ Finset.range 128, _ = _
  rw [Finset.sum_range]
  refine Finset.sum_congr rfl fun t _ => ?_
  rw [Nat.zero_add]
  unfold tileSum
  rw [dif_pos (by rw [hN]; exact t.isLt)]
  rfl

/-- At the last point the output block is the finishing value of the accumulator as that point leaves it. -/
theorem out_last (c : Dev nD) (t : Fin cfg0.N) (h0 : ¬t.val % 128 = 0) (h1 : t.val % 128 = 127) :
    (outsAt0 m c t.val t.isLt).1
      = k0_pay1 (F := Ideal) (outsAt0 m c t.val t.isLt).2 (wmblk m c t) (bmblk m c t) (wvblk m c t) (bvblk m c t) (eblk m c t) := by
  rw [outsAt0_C m c t h0 h1]
  dsimp only
  rw [Pieces.outC_eq, Pieces.soutC_eq]

/-- What the one flushing point writes back is the whole specified array. -/
theorem flushed_eq (c : Dev nD) (t : Fin cfg0.N) (hf : (cfg0.win 11).flush t = true) :
    (dats m 0 c).flushed 11 t = ((cfg0.win 11).blk t).view.read (Elt Ideal) (G m c) := by
  have hN : cfg0.N = 128 := N_0
  have h1 : t.val % 128 = 127 := (flush0_11 t).mp hf
  have ht : t.val = 127 := by have := t.isLt; omega
  rw [Value.flushed11, out_last m c t (by omega) h1]
  funext j
  show k0_pay1 (F := Ideal) (outsAt0 m c t.val t.isLt).2 (wmblk m c t) (bmblk m c t) (wvblk m c t) (bvblk m c t) (eblk m c t) j
    = G m c (((cfg0.win 11).blk t).view.emb j)
  have hemb : ((cfg0.win 11).blk t).view.emb j = j := by
    have e := (idx_whole t).2.2.2.2.2.2.2.2.2
    funext a; apply Fin.ext
    match a with
    | ⟨0, _⟩ => show win0_11.index t (0 : Fin 2) * 16 + 1 * (j 0).val = (j 0).val; rw [e 0]; omega
    | ⟨1, _⟩ => show win0_11.index t (1 : Fin 2) * 512 + 1 * (j 1).val = (j 1).val; rw [e 1]; omega
  rw [hemb]
  obtain ⟨s, l, rfl⟩ : ∃ (s : Fin 16) (l : Fin 512), j = ix2 s l := ⟨j 0, j 1, eq_ix2 j⟩
  rw [Pay.finish_of_blocks (outsAt0 m c t.val t.isLt).2 (wmblk m c t) (wmarr m c) (bmblk m c t) (wvblk m c t) (wvarr m c)
    (bvblk m c t) (eblk m c t) (earr m c) (bmarr m c) (bvarr m c) (wmblk_eq m c t) (wvblk_eq m c t) (eblk_eq m c t)
    (bmblk_apply m c t) (bvblk_apply m c t) s l]
  have hg : (fun d : Fin 1024 => (outsAt0 m c t.val t.isLt).2 (ix2 s d))
      = fun d => pooledHidden (xarr m c) (sarr m c) (w1arr m c) (b1arr m c) (w2arr m c) (b2arr m c) s d := by
    funext d
    rw [scratch_apply m c t.val t.isLt (ix2 s d)]
    have e : ∀ n (hn : n = 127), (0 : EReal) + ∑ s' ∈ Finset.range (n + 1), tileSum m c (0 + s') (ix2 s d)
        = pooledHidden (xarr m c) (sarr m c) (w1arr m c) (b1arr m c) (w2arr m c) (b2arr m c) s d := by
      intro n hn; subst hn; exact tiles_eq_pooled m c s d
    exact e t.val ht
  rw [hg]
  rfl

/-- Every entry of the output array is in the output block of any point: the block is the whole array. -/
theorem mem_blk (t : Fin cfg0.N) (i : S16x512.Idx) : i ∈ ((cfg0.win 11).blk t).view.set := by
  show i ∈ ((View.whole main_v0).slice (win0_11.rect t)).set
  rw [View.set_slice_whole, Rect.mem_set_unit]
  have e := (idx_whole t).2.2.2.2.2.2.2.2.2
  have h0 : (i 0).val < 16 := (i 0).isLt
  have h1 : (i 1).val < 512 := (i 1).isLt
  intro a
  match a with
  | ⟨0, _⟩ =>
    show win0_11.index t (0 : Fin 2) * 16 ≤ (i 0).val ∧ (i 0).val < win0_11.index t (0 : Fin 2) * 16 + 16
    rw [e 0]; omega
  | ⟨1, _⟩ =>
    show win0_11.index t (1 : Fin 2) * 512 ≤ (i 1).val ∧ (i 1).val < win0_11.index t (1 : Fin 2) * 512 + 512
    rw [e 1]; omega

/-- So every entry is in the block of the last point, the one that is written back. -/
theorem cover (i : S16x512.Idx) :
    ∃ t : Fin cfg0.N, (cfg0.win 11).flush t = true ∧ i ∈ ((cfg0.win 11).blk t).view.set := by
  have h127 : 127 < cfg0.N := by rw [show cfg0.N = 128 from N_0]; decide
  exact ⟨⟨127, h127⟩, (flush0_11 _).mpr rfl, mem_blk ⟨127, h127⟩ i⟩

/-- The output array after the run. -/
theorem final (c : Dev nD) : (dats m 0 c).arrAt 11 cfg0.N = G m c :=
  (dats m 0 c).arrAt_eq_of_cover 11 (G m c) (fun t hf => flushed_eq m c t hf) cover

/-- The kernel's run, with its result array named as the specified function of the arguments. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Fold

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.RefSide.lean ====
/-
  The reference program's result is the specified function of its arguments.

  Read one operation at a time: the two dense layers with the rectifier give every node row's hidden value; the
  scatter with an add body into a zero array sums, for each graph, the hidden rows whose segment word is the graph's
  number; the two heads, the absolute value, the negation, the scaling by one half, the exponential and the last
  product and sum are the reparameterization, in which `0.5 · (-a)` is `-0.5 · a`.
-/
import proofs.«131831_g44203803410838_cont_8to1_c_926_4_alg».proof.Proof.Gen.ReferenceIdeal.Read
import proofs.«131831_g44203803410838_cont_8to1_c_926_4_alg».proof.Proof.Spec
import proofs.«131831_g44203803410838_cont_8to1_c_926_4_alg».proof.Proof.LibRowIndex

noncomputable section

namespace Cert.ReferenceIdeal.RefValue

open Cert.ReferenceIdeal Cert.ReferenceIdeal.Read Idealize.ShloMosaic Idealize.ShloMosaic.ValueIdx
open Idealize.ShloMosaic.RowIndex Cert.Spec

/-! ## Where each operation reads its operands -/

theorem l0 (n : Fin 32768) (j : Fin 2048) (k : Fin 1024) : lidx_main_v0 (ix2 n j) k = ix2 n k :=
  funext fun a => Fin.ext (by match a with | ⟨0, _⟩ => rfl | ⟨1, _⟩ => rfl)
theorem r0 (n : Fin 32768) (j : Fin 2048) (k : Fin 1024) : ridx_main_v0 (ix2 n j) k = ix2 k j :=
  funext fun a => Fin.ext (by match a with | ⟨0, _⟩ => rfl | ⟨1, _⟩ => rfl)
theorem b0 (n : Fin 32768) (j : Fin 2048) : idx_main_v1 (idx_main_v2 (ix2 n j)) = ix1 j :=
  funext fun a => Fin.ext (by match a with | ⟨0, _⟩ => rfl)
theorem l5 (n : Fin 32768) (d : Fin 1024) (k : Fin 2048) : lidx_main_v5 (ix2 n d) k = ix2 n k :=
  funext fun a => Fin.ext (by match a with | ⟨0, _⟩ => rfl | ⟨1, _⟩ => rfl)
theorem r5 (n : Fin 32768) (d : Fin 1024) (k : Fin 2048) : ridx_main_v5 (ix2 n d) k = ix2 k d :=
  funext fun a => Fin.ext (by match a with | ⟨0, _⟩ => rfl | ⟨1, _⟩ => rfl)
theorem b5 (n : Fin 32768) (d : Fin 1024) : idx_main_v6 (idx_main_v7 (ix2 n d)) = ix1 d :=
  funext fun a => Fin.ext (by match a with | ⟨0, _⟩ => rfl)
theorem i11 (n : Fin 32768) : idx_main_v11 (ix2 n (0 : Fin 1)) = ix1 n :=
  funext fun a => Fin.ext (by match a with | ⟨0, _⟩ => rfl)
theorem l13 (s : Fin 16) (l : Fin 512) (k : Fin 1024) : lidx_main_v13 (ix2 s l) k = ix2 s k :=
  funext fun a => Fin.ext (by match a with | ⟨0, _⟩ => rfl | ⟨1, _⟩ => rfl)
theorem r13 (s : Fin 16) (l : Fin 512) (k : Fin 1024) : ridx_main_v13 (ix2 s l) k = ix2 k l :=
  funext fun a => Fin.ext (by match a with | ⟨0, _⟩ => rfl | ⟨1, _⟩ => rfl)
theorem b13 (s : Fin 16) (l : Fin 512) : idx_main_v14 (idx_main_v15 (ix2 s l)) = ix1 l :=
  funext fun a => Fin.ext (by match a with | ⟨0, _⟩ => rfl)
theorem l17 (s : Fin 16) (l : Fin 512) (k : Fin 1024) : lidx_main_v17 (ix2 s l) k = ix2 s k :=
  funext fun a => Fin.ext (by match a with | ⟨0, _⟩ => rfl | ⟨1, _⟩ => rfl)
theorem r17 (s : Fin 16) (l : Fin 512) (k : Fin 1024) : ridx_main_v17 (ix2 s l) k = ix2 k l :=
  funext fun a => Fin.ext (by match a with | ⟨0, _⟩ => rfl | ⟨1, _⟩ => rfl)
theorem b17 (s : Fin 16) (l : Fin 512) : idx_main_v18 (idx_main_v19 (ix2 s l)) = ix1 l :=
  funext fun a => Fin.ext (by match a with | ⟨0, _⟩ => rfl)

/-! ## The hidden rows -/

/-- The first layer of node row `n`, at column `j`. -/
theorem layer1_apply (x0 : (⟨S32768x1024, .f32⟩ : BufTy).Contents (Elt Ideal)) (x2 : (⟨S1024x2048, .f32⟩ : BufTy).Contents (Elt Ideal))
    (x3 : (⟨S2048, .f32⟩ : BufTy).Contents (Elt Ideal)) (n : Fin 32768) (j : Fin 2048) :
    val_main_v4 (F := Ideal) x0 x2 x3 (ix2 n j) = layer (fun k => x0 (ix2 n k)) x2 (fun j' => x3 (ix1 j')) j := by
  rw [val_main_v4_apply, val_main_v3_apply, val_main_v0_apply, val_main_v2_apply, val_main_v1_apply,
    val_main_call0_v0_apply, val_main_call0_cst_apply]
  simp only [l0, r0, b0, Ideal.maximumf_def, Ideal.addf_def, Ideal.ofBits_def, zero_word]
  rfl

/-- Both layers of node row `n`, at column `d`. -/
theorem hidden_apply (x0 : (⟨S32768x1024, .f32⟩ : BufTy).Contents (Elt Ideal)) (x2 : (⟨S1024x2048, .f32⟩ : BufTy).Contents (Elt Ideal))
    (x3 : (⟨S2048, .f32⟩ : BufTy).Contents (Elt Ideal)) (x4 : (⟨S2048x1024, .f32⟩ : BufTy).Contents (Elt Ideal))
    (x5 : (⟨S1024, .f32⟩ : BufTy).Contents (Elt Ideal)) (n : Fin 32768) (d : Fin 1024) :
    val_main_v9 (F := Ideal) x0 x2 x3 x4 x5 (ix2 n d)
      = hiddenRow (fun k => x0 (ix2 n k)) x2 (fun j => x3 (ix1 j)) x4 (fun d' => x5 (ix1 d')) d := by
  rw [val_main_v9_apply, val_main_v8_apply, val_main_v5_apply, val_main_v7_apply, val_main_v6_apply,
    val_main_call1_v0_apply, val_main_call1_cst_apply]
  simp only [l5, r5, b5, layer1_apply, Ideal.maximumf_def, Ideal.addf_def, Ideal.ofBits_def, zero_word]
  rfl

/-! ## The per-graph sums -/

theorem scatter_eq (wf : ScatterDims.WF (⟨2, ![16, 1024]⟩ : Shape) ⟨2, ![32768, 1]⟩ ⟨2, ![32768, 1024]⟩ [1] [0] [0] 1) :
    scatter_S16x1024_S32768x1_S32768x1024_1_0_0_1 = rowScatterDims 16 1024 32768 wf := rfl

/-- The scatter's result at `(s, d)`: the hidden values at column `d` of the rows of graph `s`, summed. -/
theorem pooled_apply (x0 : (⟨S32768x1024, .f32⟩ : BufTy).Contents (Elt Ideal)) (x1 : (⟨S32768, .i32⟩ : BufTy).Contents (Elt Ideal))
    (x2 : (⟨S1024x2048, .f32⟩ : BufTy).Contents (Elt Ideal)) (x3 : (⟨S2048, .f32⟩ : BufTy).Contents (Elt Ideal))
    (x4 : (⟨S2048x1024, .f32⟩ : BufTy).Contents (Elt Ideal)) (x5 : (⟨S1024, .f32⟩ : BufTy).Contents (Elt Ideal))
    (s : Fin 16) (d : Fin 1024) :
    val_main_v12 (F := Ideal) x0 x1 x2 x3 x4 x5 (ix2 s d) = pooledHidden x0 x1 x2 x3 x4 x5 s d := by
  unfold val_main_v12
  show Ideal.hostScatterAdd scatter_S16x1024_S32768x1_S32768x1024_1_0_0_1 (val_main_v10 (F := Ideal))
    (val_main_v11 (F := Ideal) x1) (val_main_v9 (F := Ideal) x0 x2 x3 x4 x5) (ix2 s d) = _
  have wf : ScatterDims.WF (⟨2, ![16, 1024]⟩ : Shape) ⟨2, ![32768, 1]⟩ ⟨2, ![32768, 1024]⟩ [1] [0] [0] 1 :=
    scatter_S16x1024_S32768x1_S32768x1024_1_0_0_1.wf
  rw [scatter_eq wf, scatterAdd_rows_apply, val_main_v10_apply, val_main_cst_apply]
  show Ideal.ofBits .f32 0x00000000#32 + _ = _
  rw [zero_word, zero_add]
  unfold pooledHidden pooled
  refine Finset.sum_congr rfl fun n _ => ?_
  rw [val_main_v11_apply, i11, hidden_apply]

/-! ## The result -/

/-- The reference's result array is the specified function of the arguments. -/
theorem result_eq (x0 : (⟨S32768x1024, .f32⟩ : BufTy).Contents (Elt Ideal)) (x1 : (⟨S32768, .i32⟩ : BufTy).Contents (Elt Ideal))
    (x2 : (⟨S1024x2048, .f32⟩ : BufTy).Contents (Elt Ideal)) (x3 : (⟨S2048, .f32⟩ : BufTy).Contents (Elt Ideal))
    (x4 : (⟨S2048x1024, .f32⟩ : BufTy).Contents (Elt Ideal)) (x5 : (⟨S1024, .f32⟩ : BufTy).Contents (Elt Ideal))
    (x6 : (⟨S1024x512, .f32⟩ : BufTy).Contents (Elt Ideal)) (x7 : (⟨S512, .f32⟩ : BufTy).Contents (Elt Ideal))
    (x8 : (⟨S1024x512, .f32⟩ : BufTy).Contents (Elt Ideal)) (x9 : (⟨S512, .f32⟩ : BufTy).Contents (Elt Ideal))
    (x10 : (⟨S16x512, .f32⟩ : BufTy).Contents (Elt Ideal)) :
    val_main_v27 (F := Ideal) x0 x1 x2 x3 x4 x5 x6 x7 x8 x9 x10 = result x0 x1 x2 x3 x4 x5 x6 x7 x8 x9 x10 := by
  funext i
  obtain ⟨s, l, rfl⟩ : ∃ (s : Fin 16) (l : Fin 512), i = ix2 s l := ⟨i 0, i 1, eq_ix2 i⟩
  rw [val_main_v27_apply, val_main_v16_apply, val_main_v13_apply, val_main_v15_apply, val_main_v14_apply,
    val_main_v26_apply, val_main_v25_apply, val_main_v24_apply, val_main_v23_apply, val_main_cst_0_apply,
    val_main_v22_apply, val_main_v21_apply, val_main_v20_apply, val_main_v17_apply, val_main_v19_apply,
    val_main_v18_apply]
  simp only [l13, r13, b13, l17, r17, b17, pooled_apply, Ideal.addf_def, Ideal.mulf_def, Ideal.hostUnary_exp_def,
    Ideal.hostNegf_def, Ideal.hostAbsf_def, Ideal.negf_def, Ideal.absf_def, Ideal.ofBits_def]
  unfold result head
  rw [neg_half_mul]

end Cert.ReferenceIdeal.RefValue

end
-- ==== Proof.lean ====
/-
  The proof of `Cert.Claim`: the three frames, the idealization (which rewrote nothing) and the equality of the two
  idealized programs' results over the extended reals.

  Both programs compute, for each of 16 graphs, the sum of its nodes' hidden rows (two dense layers, each rectified)
  and then two linear heads combined as `zm + exp (-(1/2) · |zv|) · eps`. The kernel forms the per-graph sums tile by
  tile, as a product of a 0/1 matrix with the tile's hidden block added into an accumulator that starts at zero; the
  reference forms them by one scatter with an add body. On the extended reals `0 · h = 0` and `1 · h = h` for every
  `h`, and a finite sum may be regrouped freely, so the two are the same sum and no finiteness of the inputs is used.
  The kernel scales `|zv|` by `-0.5` where the reference scales `-|zv|` by `0.5`: the same product.
-/
import proofs.«131831_g44203803410838_cont_8to1_c_926_4_alg».proof.Defs
import proofs.«131831_g44203803410838_cont_8to1_c_926_4_alg».proof.Proof.Gen.Kernel
import proofs.«131831_g44203803410838_cont_8to1_c_926_4_alg».proof.Proof.Gen.Kernel.Skeleton
import proofs.«131831_g44203803410838_cont_8to1_c_926_4_alg».proof.Proof.Gen.Kernel.Launch
import proofs.«131831_g44203803410838_cont_8to1_c_926_4_alg».proof.Proof.Gen.Kernel.Points
import proofs.«131831_g44203803410838_cont_8to1_c_926_4_alg».proof.Proof.Gen.Kernel.Frame
import proofs.«131831_g44203803410838_cont_8to1_c_926_4_alg».proof.Proof.Gen.KernelIdeal
import proofs.«131831_g44203803410838_cont_8to1_c_926_4_alg».proof.Proof.Gen.KernelIdeal.Skeleton
import proofs.«131831_g44203803410838_cont_8to1_c_926_4_alg».proof.Proof.Gen.KernelIdeal.Launch
import proofs.«131831_g44203803410838_cont_8to1_c_926_4_alg».proof.Proof.Gen.KernelIdeal.Points
import proofs.«131831_g44203803410838_cont_8to1_c_926_4_alg».proof.Proof.Gen.KernelIdeal.Frame
import proofs.«131831_g44203803410838_cont_8to1_c_926_4_alg».proof.Proof.Gen.ReferenceIdeal
import proofs.«131831_g44203803410838_cont_8to1_c_926_4_alg».proof.Proof.Gen.Pre_finite_inputs
import proofs.«131831_g44203803410838_cont_8to1_c_926_4_alg».proof.Proof.Gen.KernelIdeal.Value
import proofs.«131831_g44203803410838_cont_8to1_c_926_4_alg».proof.Proof.Gen.ReferenceIdeal.Run
import proofs.«131831_g44203803410838_cont_8to1_c_926_4_alg».proof.Proof.Gen.ReferenceIdeal.Read
import proofs.«131831_g44203803410838_cont_8to1_c_926_4_alg».proof.Proof.KernelFold
import proofs.«131831_g44203803410838_cont_8to1_c_926_4_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both idealized programs end with the specified function of the arguments. -/
theorem algebraic : Cert.algebraic_KernelIdeal_ReferenceIdeal := by
  intro m ρ m' ρ' _ hagree
  refine ⟨fun c => Cert.KernelIdeal.Fold.G m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq]
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
